-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x272x8192 : Shape := ⟨3, ![32, 272, 8192]⟩
abbrev S272x2 : Shape := ⟨2, ![272, 2]⟩
abbrev S32 : Shape := ⟨1, ![32]⟩
abbrev S_ : Shape := ⟨0, ![]⟩

class Facts : Prop where
  bcast_S_S32x272x8192 : S_.BroadcastsInDim S32x272x8192 (![] : Fin 0 → Fin S32x272x8192.rank)
  reducesTo_S32x272x8192_S_d0_1_2 : S32x272x8192.ReducesTo [0, 1, 2] S_
  h_S_ : 0 < S_.numel
  bcast_S_S272x2 : S_.BroadcastsInDim S272x2 (![] : Fin 0 → Fin S272x2.rank)
  reducesTo_S272x2_S_d0_1 : S272x2.ReducesTo [0, 1] S_

variable [Facts]

def fn {F : FTy → Type} [FloatOps F] (main_arg0 : FVec F S32x272x8192 .f32) (main_arg1 : FVec F S272x2 .f32) (main_arg2 : IVec S32 32) : IVec S_ 1 :=
  let main_v0 : FVec F S32x272x8192 .f32 := Host.absf main_arg0
  let main_cst : FVec F S_ .f32 := constant S_ .f32 0x7F800000#32
  let main_v1 : FVec F S32x272x8192 .f32 := broadcastInDim S32x272x8192 ![] bcast_S_S32x272x8192 main_cst
  let main_v2 : IVec S32x272x8192 1 := cmpf .olt main_v0 main_v1
  let main_c : IVec S_ 1 := constantI S_ 1 1#1
  let main_v3 : IVec S_ 1 := (fun x v => Host.reduce IntOp.andi x v reducesTo_S32x272x8192_S_d0_1_2 h_S_) main_v2 main_c
  let main_v4 : FVec F S272x2 .f32 := Host.absf main_arg1
  let main_cst_0 : FVec F S_ .f32 := constant S_ .f32 0x7F800000#32
  let main_v5 : FVec F S272x2 .f32 := broadcastInDim S272x2 ![] bcast_S_S272x2 main_cst_0
  let main_v6 : IVec S272x2 1 := cmpf .olt main_v4 main_v5
  let main_c_1 : IVec S_ 1 := constantI S_ 1 1#1
  let main_v7 : IVec S_ 1 := (fun x v => Host.reduce IntOp.andi x v reducesTo_S272x2_S_d0_1 h_S_) main_v6 main_c_1
  let main_v8 : IVec S_ 1 := andi main_v3 main_v7
  main_v8
-- ==== Kernel.lean ====
abbrev S32x272x8192 : Shape := ⟨3, ![32, 272, 8192]⟩
abbrev S272x2 : Shape := ⟨2, ![272, 2]⟩
abbrev S32 : Shape := ⟨1, ![32]⟩
abbrev S_ : Shape := ⟨0, ![]⟩
abbrev S32x1 : Shape := ⟨2, ![32, 1]⟩
abbrev S32x2 : Shape := ⟨2, ![32, 2]⟩
abbrev S1x272x2 : Shape := ⟨3, ![1, 272, 2]⟩
abbrev S32x1x2 : Shape := ⟨3, ![32, 1, 2]⟩
abbrev S32x272x2 : Shape := ⟨3, ![32, 272, 2]⟩
abbrev S32x272 : Shape := ⟨2, ![32, 272]⟩
abbrev S32x272x128 : Shape := ⟨3, ![32, 272, 128]⟩
abbrev S32x272x1 : Shape := ⟨3, ![32, 272, 1]⟩

abbrev nBuf : Space → Nat
  | .hbm => 26
  | .vmem => 5
  | .smem => 0
  | _ => 0

abbrev bufTy : (tb : Table) → Fin (tcTables nBuf tb) → BufTy
  | .hbm, ⟨0, _⟩ => ⟨S32x272x8192, .f32⟩
  | .hbm, ⟨1, _⟩ => ⟨S272x2, .f32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32x2, .f32⟩
  | .hbm, ⟨12, _⟩ => ⟨S1x272x2, .f32⟩
  | .hbm, ⟨13, _⟩ => ⟨S32x1x2, .f32⟩
  | .hbm, ⟨14, _⟩ => ⟨S32x272x2, .f32⟩
  | .hbm, ⟨15, _⟩ => ⟨S32x272x2, .f32⟩
  | .hbm, ⟨16, _⟩ => ⟨S32x272x2, .f32⟩
  | .hbm, ⟨17, _⟩ => ⟨S32x272x2, .f32⟩
  | .hbm, ⟨18, _⟩ => ⟨S_, .f32⟩
  | .hbm, ⟨19, _⟩ => ⟨S32x272, .f32⟩
  | .hbm, ⟨20, _⟩ => ⟨S32x272, .f32⟩
  | .hbm, ⟨21, _⟩ => ⟨S_, .f32⟩
  | .hbm, ⟨22, _⟩ => ⟨S32x272, .f32⟩
  | .hbm, ⟨23, _⟩ => ⟨S32x272, .i1⟩
  | .hbm, ⟨24, _⟩ => ⟨S32x272, .f32⟩
  | .hbm, ⟨25, _⟩ => ⟨S32x272x8192, .f32⟩
  | .local _ .vmem, ⟨0, _⟩ => ⟨S32x272, .f32⟩
  | .local _ .vmem, ⟨1, _⟩ => ⟨S32x272x128, .f32⟩
  | .local _ .vmem, ⟨2, _⟩ => ⟨S32x272x128, .f32⟩
  | .local _ .vmem, ⟨3, _⟩ => ⟨S32x272x128, .f32⟩
  | .local _ .vmem, ⟨4, _⟩ => ⟨S32x272x128, .f32⟩
  | _, _ => ⟨S32x272x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S32x272 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x272x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x272x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S272x2_S1x272x2_1_2 : S272x2.BroadcastsInDim S1x272x2 (![1, 2] : Fin 2 → Fin S1x272x2.rank)
  bcast_S32x2_S32x1x2_0_2 : S32x2.BroadcastsInDim S32x1x2 (![0, 2] : Fin 2 → Fin S32x1x2.rank)
  bcast_S1x272x2_S32x272x2_0_1_2 : S1x272x2.BroadcastsInDim S32x272x2 (![0, 1, 2] : Fin 3 → Fin S32x272x2.rank)
  bcast_S32x1x2_S32x272x2_0_1_2 : S32x1x2.BroadcastsInDim S32x272x2 (![0, 1, 2] : Fin 3 → Fin S32x272x2.rank)
  reducesTo_S32x272x2_S32x272_d2 : S32x272x2.ReducesTo [2] S32x272
  h_S_ : 0 < S_.numel
  bcast_S_S32x272 : S_.BroadcastsInDim S32x272 (![] : Fin 0 → Fin S32x272.rank)
  inb_S32x272_S32x272_0_0 : ∀ a, (![0, 0] : Fin 2 → Nat) a + S32x272.size a ≤ S32x272.size a
  h_S32x272 : 0 < S32x272.numel
  shapeCasts_S32x272_S32x272 : S32x272.ShapeCasts S32x272
  inb_S32x272x128_S32x272x128_0_0_0 : ∀ a, (![0, 0, 0] : Fin 3 → Nat) a + S32x272x128.size a ≤ S32x272x128.size a
  h_S32x272x128 : 0 < S32x272x128.numel
  shapeCasts_S32x272_S32x272x1 : S32x272.ShapeCasts S32x272x1
  shapeCasts_S32x272x1_S32x272x1 : S32x272x1.ShapeCasts S32x272x1
  broadcasts_S32x272x1_S32x272x128 : S32x272x1.Broadcasts S32x272x128
  gather_S272x2_S32x1_S32x2_1_0_n_n_0_1_12_wf : GatherDims.WF S272x2 S32x1 S32x2 [1] [0] [] [0] [] 1 ![1, 2]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x272.size a ≤ S32x272.size a
  hwx0_0 : ∀ i : grid0.Coords, EltTy.bits .f32 = 32 ∨ (Rect.block (s := S32x272) S32x272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x272x128.size a ≤ S32x272x8192.size a
  hwx0_1 : ∀ i : grid0.Coords, EltTy.bits .f32 = 32 ∨ (Rect.block (s := S32x272x8192) S32x272x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x272x128.size a ≤ S32x272x8192.size a
  hwx0_2 : ∀ i : grid0.Coords, EltTy.bits .f32 = 32 ∨ (Rect.block (s := S32x272x8192) S32x272x128.size (cc0_transform_2 i) (hinb0_2 i)).WholeWords (EltTy.packing .f32)

variable [Facts₀]

def gather_S272x2_S32x1_S32x2_1_0_n_n_0_1_12 : GatherDims S272x2 S32x1 S32x2 where
  offsetDims := [1]
  collapsedSliceDims := [0]
  operandBatchingDims := []
  startIndicesBatchingDims := []
  startIndexMap := [0]
  indexVectorDim := 1
  sliceSizes := ![1, 2]
  wf := gather_S272x2_S32x1_S32x2_1_0_n_n_0_1_12_wf

abbrev win0_0 : Pipeline.Window sig grid0 :=
  Pipeline.Window.ofSpec (Memref.whole main_v15) S32x272.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x272x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x272x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x272x8192 : Shape := ⟨3, ![32, 272, 8192]⟩
abbrev S272x2 : Shape := ⟨2, ![272, 2]⟩
abbrev S32 : Shape := ⟨1, ![32]⟩
abbrev S_ : Shape := ⟨0, ![]⟩
abbrev S32x1 : Shape := ⟨2, ![32, 1]⟩
abbrev S32x2 : Shape := ⟨2, ![32, 2]⟩
abbrev S1x272x2 : Shape := ⟨3, ![1, 272, 2]⟩
abbrev S32x1x2 : Shape := ⟨3, ![32, 1, 2]⟩
abbrev S32x272x2 : Shape := ⟨3, ![32, 272, 2]⟩
abbrev S32x272 : Shape := ⟨2, ![32, 272]⟩
abbrev S32x272x1 : Shape := ⟨3, ![32, 272, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x272x8192, .f32⟩
  | .hbm, ⟨1, _⟩ => ⟨S272x2, .f32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32x2, .f32⟩
  | .hbm, ⟨12, _⟩ => ⟨S1x272x2, .f32⟩
  | .hbm, ⟨13, _⟩ => ⟨S32x1x2, .f32⟩
  | .hbm, ⟨14, _⟩ => ⟨S32x272x2, .f32⟩
  | .hbm, ⟨15, _⟩ => ⟨S32x272x2, .f32⟩
  | .hbm, ⟨16, _⟩ => ⟨S32x272x2, .f32⟩
  | .hbm, ⟨17, _⟩ => ⟨S32x272x2, .f32⟩
  | .hbm, ⟨18, _⟩ => ⟨S_, .f32⟩
  | .hbm, ⟨19, _⟩ => ⟨S32x272, .f32⟩
  | .hbm, ⟨20, _⟩ => ⟨S32x272, .f32⟩
  | .hbm, ⟨21, _⟩ => ⟨S_, .f32⟩
  | .hbm, ⟨22, _⟩ => ⟨S32x272, .f32⟩
  | .hbm, ⟨23, _⟩ => ⟨S32x272, .i1⟩
  | .hbm, ⟨24, _⟩ => ⟨S32x272, .f32⟩
  | .hbm, ⟨25, _⟩ => ⟨S32x272x1, .f32⟩
  | .hbm, ⟨26, _⟩ => ⟨S32x272x8192, .f32⟩
  | .hbm, ⟨27, _⟩ => ⟨S32x272x8192, .f32⟩
  | _, _ => ⟨S32x272x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S272x2_S1x272x2_1_2 : S272x2.BroadcastsInDim S1x272x2 (![1, 2] : Fin 2 → Fin S1x272x2.rank)
  bcast_S32x2_S32x1x2_0_2 : S32x2.BroadcastsInDim S32x1x2 (![0, 2] : Fin 2 → Fin S32x1x2.rank)
  bcast_S1x272x2_S32x272x2_0_1_2 : S1x272x2.BroadcastsInDim S32x272x2 (![0, 1, 2] : Fin 3 → Fin S32x272x2.rank)
  bcast_S32x1x2_S32x272x2_0_1_2 : S32x1x2.BroadcastsInDim S32x272x2 (![0, 1, 2] : Fin 3 → Fin S32x272x2.rank)
  reducesTo_S32x272x2_S32x272_d2 : S32x272x2.ReducesTo [2] S32x272
  h_S_ : 0 < S_.numel
  bcast_S_S32x272 : S_.BroadcastsInDim S32x272 (![] : Fin 0 → Fin S32x272.rank)
  bcast_S32x272_S32x272x1_0_1 : S32x272.BroadcastsInDim S32x272x1 (![0, 1] : Fin 2 → Fin S32x272x1.rank)
  bcast_S32x272x1_S32x272x8192_0_1_2 : S32x272x1.BroadcastsInDim S32x272x8192 (![0, 1, 2] : Fin 3 → Fin S32x272x8192.rank)
  gather_S272x2_S32x1_S32x2_1_0_n_n_0_1_12_wf : GatherDims.WF S272x2 S32x1 S32x2 [1] [0] [] [0] [] 1 ![1, 2]

variable [Facts₀]

def gather_S272x2_S32x1_S32x2_1_0_n_n_0_1_12 : GatherDims S272x2 S32x1 S32x2 where
  offsetDims := [1]
  collapsedSliceDims := [0]
  operandBatchingDims := []
  startIndicesBatchingDims := []
  startIndexMap := [0]
  indexVectorDim := 1
  sliceSizes := ![1, 2]
  wf := gather_S272x2_S32x1_S32x2_1_0_n_n_0_1_12_wf

class Facts : Prop extends Facts₀ where

variable [Facts]
-- ==== Proof.MaskedProduct.lean ====
/-
  The function both programs compute. A signal `X` of shape [32, 272, 8192] (batch, channel, time) is multiplied,
  element by element, by a mask of shape [32, 272] that does not depend on time:

      out (b, c, t) = mask (b, c) · X (b, c, t).

  Both programs form this product of the same two factors in the same order at every index, so joining the two
  sides uses no law of the extended reals (neither commutativity nor anything that fails at an infinity), and the
  function is stated once for every float instance.
-/
import Idealize.ShloMosaic.PureOps.Ideal
import Idealize.ShloMosaic.Lib.ValueIdx

noncomputable section

namespace Cert.MaskedProduct

open Idealize.ShloMosaic Idealize.ShloMosaic.ValueIdx

variable {F : FTy → Type} [FloatOps F]

/-- The shape of the mask: one entry per (batch, channel) pair. -/
abbrev Rows : Shape := ⟨2, ![32, 272]⟩
/-- The shape of the signal and of the result. -/
abbrev Cube : Shape := ⟨3, ![32, 272, 8192]⟩

/-- The (batch, channel) pair an element of the signal belongs to: its first two coordinates. -/
abbrev rowOf (i : Cube.Idx) : Rows.Idx := ix2 (n0 := 32) (n1 := 272) (i 0) (i 1)

/-- The masked signal: every element times the mask entry of its (batch, channel) pair. -/
def maskedProduct (mask : Vec F Rows .f32) (X : Vec F Cube .f32) : Vec F Cube .f32 :=
  fun i => FloatOps.mulf (mask (rowOf i)) (X i)

/-- The masked signal at an index. -/
theorem maskedProduct_apply (mask : Vec F Rows .f32) (X : Vec F Cube .f32) (i : Cube.Idx) :
    maskedProduct mask X i = FloatOps.mulf (mask (rowOf i)) (X i) := rfl

/-- The first coordinate of an element's (batch, channel) pair is the element's batch. -/
theorem rowOf_val0 (i : Cube.Idx) : ((rowOf i) 0).val = (i 0).val := rfl
/-- The second is its channel. -/
theorem rowOf_val1 (i : Cube.Idx) : ((rowOf i) 1).val = (i 1).val := rfl

end Cert.MaskedProduct

end
-- ==== Proof.KernelBlocks.lean ====
/-
  The kernel's output array after its run. The grid has 64 points; at point `t` the body is given the whole
  [32, 272] mask (the same block at every point) and the 128 time steps `128·t … 128·t + 127` of the signal, and it
  writes back, to the same 128 time steps of the output, the mask broadcast along time times the signal block. The
  64 blocks of 128 time steps tile the 8192 time steps exactly, so every element of the output is written, by the
  point `t = time / 128`, and the output array ends as the masked product of the mask array and the signal.
-/
import proofs.«168335_j36215164240425_1_alg».proof.Proof.Gen.KernelIdeal.Value
import proofs.«168335_j36215164240425_1_alg».proof.Proof.MaskedProduct

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.MaskedProduct

variable {F : FTy → Type} [FloatOps F]
variable (m : (ℓ : Loc nD τ sig) → Buf (Elt F) ℓ) (ρ : Dev nD → PrngReg)

/-! ## What the body leaves in the output block -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The signal block is read where the output block is written. -/
theorem same_place (y : S32x272x128.Idx) : Value.ix2_1 y = y :=
  funext fun a => Fin.ext (by match a with | ⟨0, _⟩ => rfl | ⟨1, _⟩ => rfl | ⟨2, _⟩ => rfl)

/-- For any mask block `p` and signal block `x`, the body leaves at (b, c, s) the product p (b, c) · x (b, c, s):
    both blocks are loaded whole, and the one store covers the output block. -/
theorem body_result (p : Vec F S32x272 .f32) (x : Vec F S32x272x128 .f32) (y : S32x272x128.Idx) :
    out0_2 p x y = FloatOps.mulf (p (Value.ix2_0 y)) (x y) := by
  unfold out0_2
  rw [Value.canon2_eq]
  show FloatOps.mulf (View.ld p r0_0 (Value.ix2_0 y)) (View.ld x r0_1 (Value.ix2_1 y)) = _
  rw [View.ld_unit_zero (S := S32x272) zeros2, View.ld_unit_zero (S := S32x272x128) zeros3, same_place]

/-! ## Where each point's blocks sit -/

/-- Decided over the 64 points: the mask's block is always the whole mask; the signal's and the output's block at
    point `t` is the `t`-th along time and the whole of batch and channel. -/
theorem block_positions : ∀ t : Fin cfg0.N,
    win0_0.index t (0 : Fin 2) = 0 ∧ win0_0.index t (1 : Fin 2) = 0
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val :=
  (by decide +kernel : ∀ t : Fin grid0.N, _)

/-- WHAT POINT `t` WRITES BACK is block `t` of the masked product of the mask array and the signal as the region
    finds them. -/
theorem flushed_eq (c : Dev nD) (t : Fin cfg0.N) :
    (dats m 0 c).flushed 2 t
      = ((cfg0.win 2).blk t).view.read (Elt F) (maskedProduct (V m c main_v15) (V m c main_arg0)) := by
  rw [Value.flushed2]
  obtain ⟨a0, a1, b0, b1, b2, o0, o1, o2⟩ := block_positions t
  funext j
  show out0_2 (iblk m c 0 t) (iblk m c 1 t) j = _
  refine (body_result (iblk m c 0 t) (iblk m c 1 t) j).trans ?_
  show FloatOps.mulf (V m c main_v15 (((cfg0.win 0).blk t).view.emb (Value.ix2_0 j)))
      (V m c main_arg0 (((cfg0.win 1).blk t).view.emb j))
    = FloatOps.mulf (V m c main_v15 (rowOf (((cfg0.win 2).blk t).view.emb j)))
      (V m c main_arg0 (((cfg0.win 2).blk t).view.emb j))
  have hmask : ((cfg0.win 0).blk t).view.emb (Value.ix2_0 j) = rowOf (((cfg0.win 2).blk t).view.emb j) := by
    funext a; apply Fin.ext
    match a with
    | ⟨0, _⟩ => show win0_0.index t (0 : Fin 2) * 32 + 1 * (j 0).val = win0_2.index t (0 : Fin 3) * 32 + 1 * (j 0).val; omega
    | ⟨1, _⟩ => show win0_0.index t (1 : Fin 2) * 272 + 1 * (j 1).val = win0_2.index t (1 : Fin 3) * 272 + 1 * (j 1).val; omega
  have hsig : ((cfg0.win 1).blk t).view.emb j = ((cfg0.win 2).blk t).view.emb j := by
    funext a; apply Fin.ext
    match a with
    | ⟨0, _⟩ => show win0_1.index t (0 : Fin 3) * 32 + 1 * (j 0).val = win0_2.index t (0 : Fin 3) * 32 + 1 * (j 0).val; omega
    | ⟨1, _⟩ => show win0_1.index t (1 : Fin 3) * 272 + 1 * (j 1).val = win0_2.index t (1 : Fin 3) * 272 + 1 * (j 1).val; omega
    | ⟨2, _⟩ => show win0_1.index t (2 : Fin 3) * 128 + 1 * (j 2).val = win0_2.index t (2 : Fin 3) * 128 + 1 * (j 2).val; omega
  rw [hmask, hsig]

/-! ## The blocks tile the output -/

/-- An element of the output is in point `t`'s block iff each coordinate is in the block's range on its axis. -/
theorem mem_block (t : Fin cfg0.N) (i : S32x272x8192.Idx) :
    i ∈ ((cfg0.win 2).blk t).view.set
      ↔ ∀ a : Fin 3, win0_2.index t a * S32x272x128.size a ≤ (i a).val
          ∧ (i a).val < win0_2.index t a * S32x272x128.size a + S32x272x128.size a := by
  show i ∈ ((View.whole main_v16).slice (win0_2.rect t)).set ↔ _
  rw [View.set_slice_whole, Rect.mem_set_unit]
  exact Iff.rfl

/-- Every element of the output is in the block of the point `time / 128`, which writes back. -/
theorem covered (i : S32x272x8192.Idx) :
    ∃ t : Fin cfg0.N, (cfg0.win 2).flush t = true ∧ i ∈ ((cfg0.win 2).blk t).view.set := by
  have hi0 : (i 0).val < 32 := (i 0).isLt
  have hi1 : (i 1).val < 272 := (i 1).isLt
  have hi2 : (i 2).val < 8192 := (i 2).isLt
  obtain ⟨t, ht⟩ : ∃ t : Fin cfg0.N, t.val = (i 2).val / 128 :=
    ⟨⟨(i 2).val / 128, by rw [show cfg0.N = 64 from N_0]; omega⟩, rfl⟩
  obtain ⟨-, -, -, -, -, o0, o1, o2⟩ := block_positions t
  refine ⟨t, flush0_2 t, ?_⟩
  rw [mem_block]
  intro a
  match a with
  | ⟨0, _⟩ =>
    show win0_2.index t (0 : Fin 3) * 32 ≤ (i 0).val ∧ (i 0).val < win0_2.index t (0 : Fin 3) * 32 + 32
    omega
  | ⟨1, _⟩ =>
    show win0_2.index t (1 : Fin 3) * 272 ≤ (i 1).val ∧ (i 1).val < win0_2.index t (1 : Fin 3) * 272 + 272
    omega
  | ⟨2, _⟩ =>
    show win0_2.index t (2 : Fin 3) * 128 ≤ (i 2).val ∧ (i 2).val < win0_2.index t (2 : Fin 3) * 128 + 128
    omega

/-! ## The output array, and the run -/

/-- THE OUTPUT ARRAY after the run is the masked product of the mask array and the signal. -/
theorem final (c : Dev nD) :
    (dats m 0 c).arrAt 2 cfg0.N = maskedProduct (V m c main_v15) (V m c main_arg0) :=
  (dats m 0 c).arrAt_eq_of_cover 2 (maskedProduct (V m c main_v15) (V m c main_arg0))
    (fun t _ => flushed_eq m c t) covered

/-- The kernel's run: every weakly fair execution terminates with the output array at the masked product of the mask
    array the region was launched with and the signal as launched, the arguments unchanged. -/
theorem run : θ_run defs (onTc (τ := τ) (main (F := F))) ⟨m, fun _ => 0, ρ⟩ fun r => ∀ c : Dev nD,
      r.2.mem ((c : Thread nD τ).loc main_v16)
        = maskedProduct (V m c main_v15) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_arg0])), (h c).2⟩)
    (Value.run_blocks m ρ)

end Cert.KernelIdeal.Blocks

end
-- ==== Proof.MaskArray.lean ====
/-
  The mask the kernel's region is launched with. Before the region, the kernel's program computes the mask with the
  same host operations, in the same order and with the same constants, as the reference does: the drop centre of
  each batch item is gathered from the channel locations (a negative index first wrapped by adding 272), every
  channel's distance to it is the square root of the sum over the two coordinates of the squared difference, and the
  mask is 1 where that distance is at least the radius 0.2 and 0 elsewhere. So the array the region finds is, term
  for term, the reference's mask stage of the two small arguments; nothing about the mask's values is used.
-/
import proofs.«168335_j36215164240425_1_alg».proof.Proof.Gen.KernelIdeal.Frame
import proofs.«168335_j36215164240425_1_alg».proof.Proof.Gen.ReferenceIdeal.Read

noncomputable section

namespace Cert.KernelIdeal.MaskArray

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The mask array as the region finds it is the reference's mask stage of the channel locations and the drop
    indices as launched. -/
theorem mask_eq (c : Dev nD) :
    (V m c main_v15 : S32x272.Idx → Elt F .f32)
      = Cert.ReferenceIdeal.Read.val_main_v15 (F := F) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results
  rfl

end Cert.KernelIdeal.MaskArray

end
-- ==== Proof.ReferenceProduct.lean ====
/-
  The reference's result, read at an index. Its last three operations broadcast the [32, 272] mask along a new
  unit axis, then along the 8192 time steps, and multiply by the signal; so the element at (b, c, t) is
  mask (b, c) · X (b, c, t): the masked product of the mask stage and the signal.
-/
import proofs.«168335_j36215164240425_1_alg».proof.Proof.Gen.ReferenceIdeal.Read
import proofs.«168335_j36215164240425_1_alg».proof.Proof.MaskedProduct

noncomputable section

namespace Cert.ReferenceIdeal.Product

open Cert.ReferenceIdeal Cert.ReferenceIdeal.Read Idealize.ShloMosaic Cert.MaskedProduct

variable {F : FTy → Type} [FloatOps F]

/-- Going back through the two broadcasts, an element of the result reads the mask at its (batch, channel) pair:
    the time coordinate is dropped by the second broadcast, the unit coordinate by the first. -/
theorem mask_index (i : S32x272x8192.Idx) : idx_main_v16 (idx_main_v17 i) = rowOf i :=
  funext fun a => Fin.ext (by match a with | ⟨0, _⟩ => rfl | ⟨1, _⟩ => rfl)

/-- The reference's result is the masked product of its mask stage and the signal. -/
theorem result_eq (x0 : (⟨S32x272x8192, .f32⟩ : BufTy).Contents (Elt F)) (x1 : (⟨S272x2, .f32⟩ : BufTy).Contents (Elt F))
    (x2 : (⟨S32, .i32⟩ : BufTy).Contents (Elt F)) :
    val_main_v18 (F := F) x0 x1 x2 = maskedProduct (val_main_v15 (F := F) x1 x2) x0 := by
  funext i
  rw [val_main_v18_apply, val_main_v17_apply, val_main_v16_apply, mask_index, maskedProduct_apply]

end Cert.ReferenceIdeal.Product

end
-- ==== Proof.lean ====
/-
  Masking a signal by a per-(batch, channel) mask: the kernel and its reference compute the same array.

  Both programs first compute, on the host and by the same operations with the same constants, a mask of shape
  [32, 272]: for batch item b the location of the channel `drop_ids b` is gathered from `loc`, every channel's
  Euclidean distance to it is taken, and mask (b, c) is 1 where that distance is at least 0.2 and 0 elsewhere.
  They then multiply the signal X of shape [32, 272, 8192] by the mask broadcast along the last axis,

      out (b, c, t) = mask (b, c) · X (b, c, t),

  the reference in one multiplication of whole arrays, the kernel block by block: 64 grid points, point t holding
  the whole mask and the time steps 128·t … 128·t + 127 of X, the 64 blocks tiling the 8192 time steps.

  At every index the two results are the product of the same two extended reals in the same order, so they are
  equal with no appeal to any law of multiplication and with no use of the inputs' finiteness; and the two masks
  are the same term of `loc` and `drop_ids`, so nothing about the mask's values (the gather, the square root, the
  comparison) is ever opened.

  The parts: `MaskedProduct` states the function; `KernelBlocks` shows the kernel's output array ends as that
  function of the mask array its region is launched with and of X; `MaskArray` shows that mask array is the
  reference's mask stage of `loc` and `drop_ids`; `ReferenceProduct` shows the reference's result is that function
  of its mask stage and X. No operation of the kernel had to be rewritten to be read over the extended reals, so
  the kernel's idealization is its own text and that conjunct is trivial.
-/
import proofs.«168335_j36215164240425_1_alg».proof.Defs
import proofs.«168335_j36215164240425_1_alg».proof.Proof.Gen.Kernel
import proofs.«168335_j36215164240425_1_alg».proof.Proof.Gen.Kernel.Skeleton
import proofs.«168335_j36215164240425_1_alg».proof.Proof.Gen.Kernel.Launch
import proofs.«168335_j36215164240425_1_alg».proof.Proof.Gen.Kernel.Points
import proofs.«168335_j36215164240425_1_alg».proof.Proof.Gen.Kernel.Frame
import proofs.«168335_j36215164240425_1_alg».proof.Proof.Gen.KernelIdeal
import proofs.«168335_j36215164240425_1_alg».proof.Proof.Gen.KernelIdeal.Skeleton
import proofs.«168335_j36215164240425_1_alg».proof.Proof.Gen.KernelIdeal.Launch
import proofs.«168335_j36215164240425_1_alg».proof.Proof.Gen.KernelIdeal.Points
import proofs.«168335_j36215164240425_1_alg».proof.Proof.Gen.KernelIdeal.Frame
import proofs.«168335_j36215164240425_1_alg».proof.Proof.Gen.ReferenceIdeal
import proofs.«168335_j36215164240425_1_alg».proof.Proof.Gen.Pre_finite_inputs
import proofs.«168335_j36215164240425_1_alg».proof.Proof.Gen.KernelIdeal.Value
import proofs.«168335_j36215164240425_1_alg».proof.Proof.Gen.ReferenceIdeal.Run
import proofs.«168335_j36215164240425_1_alg».proof.Proof.Gen.ReferenceIdeal.Read
import Idealize.ShloMosaic.Adequacy
import Idealize.ShloMosaic.Init
import proofs.«168335_j36215164240425_1_alg».proof.Proof.MaskedProduct
import proofs.«168335_j36215164240425_1_alg».proof.Proof.KernelBlocks
import proofs.«168335_j36215164240425_1_alg».proof.Proof.MaskArray
import proofs.«168335_j36215164240425_1_alg».proof.Proof.ReferenceProduct

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on X, `loc` and `drop_ids`, both programs end with mask (b, c) · X (b, c, t) at every
    index, for the one mask both compute: the kernel's output array is the masked product of the mask array its
    region found and X; that mask array is the reference's mask stage; and the reference's result is the masked
    product of its mask stage and X. -/
theorem algebraic : Cert.algebraic_KernelIdeal_ReferenceIdeal := by
  intro m ρ m' ρ' _ hagree
  refine ⟨fun c => Cert.MaskedProduct.maskedProduct (Cert.KernelIdeal.Gen.V m c Cert.KernelIdeal.main_v15)
      (m ((c : Thread Cert.KernelIdeal.nD Cert.KernelIdeal.τ).loc Cert.KernelIdeal.main_arg0)),
    Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Product.result_eq,
    (hagree c).1, (hagree c).2.1, (hagree c).2.2]
  beta_reduce
  rw [Cert.KernelIdeal.MaskArray.mask_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
